-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S16384x1024 : Shape := ⟨2, ![16384, 1024]⟩
abbrev S16384x3072 : Shape := ⟨2, ![16384, 3072]⟩
abbrev S1x1024 : Shape := ⟨2, ![1, 1024]⟩
abbrev S4x4096x3072 : Shape := ⟨3, ![4, 4096, 3072]⟩
abbrev S4x4096x16x64 : Shape := ⟨4, ![4, 4096, 16, 64]⟩
abbrev S4x16x4096x64 : Shape := ⟨4, ![4, 16, 4096, 64]⟩

abbrev nBuf : Space → Nat
  | .hbm => 22
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S1x3072, .f32⟩
  | .hbm, ⟨10, _⟩ => ⟨S16384x1024, .f32⟩
  | .hbm, ⟨11, _⟩ => ⟨S16384x3072, .f32⟩
  | .hbm, ⟨12, _⟩ => ⟨S4x4096x3072, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x16x64, .f32⟩
  | .hbm, ⟨17, _⟩ => ⟨S4x16x4096x64, .f32⟩
  | .hbm, ⟨18, _⟩ => ⟨S4x4096x16x64, .f32⟩
  | .hbm, ⟨19, _⟩ => ⟨S4x16x4096x64, .f32⟩
  | .hbm, ⟨20, _⟩ => ⟨S4x4096x16x64, .f32⟩
  | .hbm, ⟨21, _⟩ => ⟨S4x16x4096x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  shapeCasts_S4x4096x1024_S16384x1024 : S4x4096x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x3072_S4x4096x3072 : S16384x3072.ShapeCasts S4x4096x3072
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x3072.size a
  hwx0_3 : ∀ i : grid0.Coords, EltTy.bits .f32 = 32 ∨ (Rect.block (s := S16384x3072) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S4x4096x3072 : Shape := ⟨3, ![4, 4096, 3072]⟩
abbrev S1x1x3072 : Shape := ⟨3, ![1, 1, 3072]⟩
abbrev S4x4096x16x64 : Shape := ⟨4, ![4, 4096, 16, 64]⟩
abbrev S4x16x4096x64 : Shape := ⟨4, ![4, 16, 4096, 64]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S4x4096x3072, .f32⟩
  | .hbm, ⟨10, _⟩ => ⟨S1x1x3072, .f32⟩
  | .hbm, ⟨11, _⟩ => ⟨S4x4096x3072, .f32⟩
  | .hbm, ⟨12, _⟩ => ⟨S4x4096x3072, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x16x64, .f32⟩
  | .hbm, ⟨17, _⟩ => ⟨S4x16x4096x64, .f32⟩
  | .hbm, ⟨18, _⟩ => ⟨S4x4096x16x64, .f32⟩
  | .hbm, ⟨19, _⟩ => ⟨S4x16x4096x64, .f32⟩
  | .hbm, ⟨20, _⟩ => ⟨S4x4096x16x64, .f32⟩
  | .hbm, ⟨21, _⟩ => ⟨S4x16x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  dot_S4x4096x1024_S1024x3072_S4x4096x3072_2_0_01_1_n_n_wf : DotDims.WF S4x4096x1024 S1024x3072 S4x4096x3072 [2] [0] [0, 1] [1] [] []

variable [Facts₀]

def dot_S4x4096x1024_S1024x3072_S4x4096x3072_2_0_01_1_n_n : DotDims S4x4096x1024 S1024x3072 S4x4096x3072 where
  lhsContracting := [2]
  rhsContracting := [0]
  lhsNonContracting := [0, 1]
  rhsNonContracting := [1]
  lhsBatch := []
  rhsBatch := []
  wf := dot_S4x4096x1024_S1024x3072_S4x4096x3072_2_0_01_1_n_n_wf

class Facts : Prop extends Facts₀ where

variable [Facts]
-- ==== Proof.BitsFrame.lean ====
/-
  The frame of the fused QKV projection program, at any float instance: @main is four host lines (the three weight
  matrices laid side by side into one 1024 × 3072 matrix, the three biases end to end into one row of 3072, the
  activations flattened to 16384 rows), ONE launch on a 16 × 3 grid, and ten host lines that cut the 16384 × 3072 product
  back into q, k, v per head. At grid point (i, j) the body reads a 1024 × 1024 block of rows of the activations, the
  1024 × 1024 block of columns j of the stacked weights and the matching 1 × 1024 stretch of the bias row, and stores
  one 1024 × 1024 block of the product: every load and the one store go through the whole staging buffer, so after the
  body the output buffer is ONE function of the three input blocks (`outBlock`), the input buffers are as they were, and
  the pipeline's bookkeeping passes through. From that: every weakly fair run of @main ends, faults nowhere, leaves the
  seven argument arrays as they were started (no host line and no window writes one), and leaves the product array at
  what the grid points wrote back.
-/
import proofs.«115841_j58463094833510_1_alg».proof.Proof.Gen.Kernel.Launch
import proofs.«115841_j58463094833510_1_alg».proof.Proof.Gen.Kernel.Skeleton
import proofs.«115841_j58463094833510_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What core `c`'s buffers hold when the launch is reached: the started memory after the four host lines. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the four lines, the launch, and then the ten lines as the launch's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The ten later lines touch only buffers that outlive the launch: the windows' arrays and the buffers no window stages. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes a window's array (each writes its own result buffer, one of main_v5 … main_v14). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host line before the launch writes argument 0: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 0 either: it ends as the program was started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the launch writes argument 1: the launch finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 1 either: it ends as the program was started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the launch writes argument 2: the launch finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 2 either: it ends as the program was started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the launch writes argument 3: the launch finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 3 either: it ends as the program was started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the launch writes argument 4: the launch finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 4 either: it ends as the program was started. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the launch writes argument 5: the launch finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 5 either: it ends as the program was started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the launch writes argument 6: the launch finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 6 either: it ends as the program was started. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds that window's block at every grid point, whether the point fetches
    it or finds it left from the point before (the block index has then not moved). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds that window's block at every grid point, whether the point fetches
    it or finds it left from the point before (the block index has then not moved). -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds that window's block at every grid point, whether the point fetches
    it or finds it left from the point before (the block index has then not moved). -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's final state to the frame claim -/

/-- The seven argument arrays are staged by no window, so the pipeline's final state has each at what the later host
    lines leave of the launch-entry contents, which is the started contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The body -/

/-- The whole 1024 × 1024 staging buffer, and the whole 1 × 1024 one: the body's only rectangles. -/
abbrev sq : Rect S1024x1024 := Rect.unit (s := S1024x1024) ![0, 0] S1024x1024.size Facts₀.inb_S1024x1024_S1024x1024_0_0
abbrev row : Rect S1x1024 := Rect.unit (s := S1x1024) ![0, 0] S1x1024.size Facts₀.inb_S1x1024_S1x1024_0_0

/-- What the body leaves in the output buffer, from the three input blocks: its one store, of the product of the first
    two blocks plus the third broadcast down the rows. -/
def outBlock (x0 : Vec F S1024x1024 .f32) (x1 : Vec F S1024x1024 .f32) (x2 : Vec F S1x1024 .f32) : Vec F S1024x1024 .f32 :=
  View.canon [⟨sq, k0_pay1 (View.ld x0 sq) (View.ld x1 sq) (View.ld x2 row)⟩]

/-- The one store covers the buffer. -/
theorem outCover (p0 : Vec F S1024x1024 .f32) (y : S1024x1024.Idx) :
    ∃ pc ∈ ([⟨sq, p0⟩] : List (View.Piece (Elt F) S1024x1024 .f32)), y ∈ pc.1.set :=
  View.cover_of_tiled [⟨sq, p0⟩] S1024x1024.size (by rfl) y

set_option maxHeartbeats 1000000 in
/-- The body on whole staging buffers: the inputs' at contents `x0`, `x1`, `x2` and the output's at anything; it ends
    with the inputs' as they were and the output's at `outBlock x0 x1 x2`. (It also loads the output buffer before
    storing into it; the loaded value is used nowhere.) -/
theorem sound_kernel (c : Dev nD) (E : Set ℕ) (i : grid0.Coords)
    (arg2 : Memref sig .tc .vmem S1024x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1024x1024 .f32) (harg5 : arg5.IsWhole)
    (x0 : Vec F S1024x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__qkv_kernel i arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- On core `c`: the arrays as the launch finds them; after the body at point `t` each input buffer at its block and
    the output buffer at `outBlock` of the three blocks; the invariant is the part of the core the body never touches;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body obligation at a grid point -/

/-- What the pipeline hands the body at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it wants back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair run of @main ends; the product array ends at what the grid points wrote back, every other lasting
    buffer at what the ten later lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the run ends with the seven argument arrays as started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Run

end
-- ==== Proof.IdealFrame.lean ====
/-
  The frame of the fused QKV projection program, at any float instance: @main is four host lines (the three weight
  matrices laid side by side into one 1024 × 3072 matrix, the three biases end to end into one row of 3072, the
  activations flattened to 16384 rows), ONE launch on a 16 × 3 grid, and ten host lines that cut the 16384 × 3072 product
  back into q, k, v per head. At grid point (i, j) the body reads a 1024 × 1024 block of rows of the activations, the
  1024 × 1024 block of columns j of the stacked weights and the matching 1 × 1024 stretch of the bias row, and stores
  one 1024 × 1024 block of the product: every load and the one store go through the whole staging buffer, so after the
  body the output buffer is ONE function of the three input blocks (`outBlock`), the input buffers are as they were, and
  the pipeline's bookkeeping passes through. From that: every weakly fair run of @main ends, faults nowhere, leaves the
  seven argument arrays as they were started (no host line and no window writes one), and leaves the product array at
  what the grid points wrote back.
-/
import proofs.«115841_j58463094833510_1_alg».proof.Proof.Gen.KernelIdeal.Launch
import proofs.«115841_j58463094833510_1_alg».proof.Proof.Gen.KernelIdeal.Skeleton
import proofs.«115841_j58463094833510_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What core `c`'s buffers hold when the launch is reached: the started memory after the four host lines. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the four lines, the launch, and then the ten lines as the launch's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The ten later lines touch only buffers that outlive the launch: the windows' arrays and the buffers no window stages. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes a window's array (each writes its own result buffer, one of main_v5 … main_v14). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host line before the launch writes argument 0: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 0 either: it ends as the program was started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the launch writes argument 1: the launch finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 1 either: it ends as the program was started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the launch writes argument 2: the launch finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 2 either: it ends as the program was started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the launch writes argument 3: the launch finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 3 either: it ends as the program was started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the launch writes argument 4: the launch finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 4 either: it ends as the program was started. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the launch writes argument 5: the launch finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 5 either: it ends as the program was started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the launch writes argument 6: the launch finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the launch writes argument 6 either: it ends as the program was started. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds that window's block at every grid point, whether the point fetches
    it or finds it left from the point before (the block index has then not moved). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds that window's block at every grid point, whether the point fetches
    it or finds it left from the point before (the block index has then not moved). -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds that window's block at every grid point, whether the point fetches
    it or finds it left from the point before (the block index has then not moved). -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's final state to the frame claim -/

/-- The seven argument arrays are staged by no window, so the pipeline's final state has each at what the later host
    lines leave of the launch-entry contents, which is the started contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The body -/

/-- The whole 1024 × 1024 staging buffer, and the whole 1 × 1024 one: the body's only rectangles. -/
abbrev sq : Rect S1024x1024 := Rect.unit (s := S1024x1024) ![0, 0] S1024x1024.size Facts₀.inb_S1024x1024_S1024x1024_0_0
abbrev row : Rect S1x1024 := Rect.unit (s := S1x1024) ![0, 0] S1x1024.size Facts₀.inb_S1x1024_S1x1024_0_0

/-- What the body leaves in the output buffer, from the three input blocks: its one store, of the product of the first
    two blocks plus the third broadcast down the rows. -/
def outBlock (x0 : Vec F S1024x1024 .f32) (x1 : Vec F S1024x1024 .f32) (x2 : Vec F S1x1024 .f32) : Vec F S1024x1024 .f32 :=
  View.canon [⟨sq, k0_pay1 (View.ld x0 sq) (View.ld x1 sq) (View.ld x2 row)⟩]

/-- The one store covers the buffer. -/
theorem outCover (p0 : Vec F S1024x1024 .f32) (y : S1024x1024.Idx) :
    ∃ pc ∈ ([⟨sq, p0⟩] : List (View.Piece (Elt F) S1024x1024 .f32)), y ∈ pc.1.set :=
  View.cover_of_tiled [⟨sq, p0⟩] S1024x1024.size (by rfl) y

set_option maxHeartbeats 1000000 in
/-- The body on whole staging buffers: the inputs' at contents `x0`, `x1`, `x2` and the output's at anything; it ends
    with the inputs' as they were and the output's at `outBlock x0 x1 x2`. (It also loads the output buffer before
    storing into it; the loaded value is used nowhere.) -/
theorem sound_kernel (c : Dev nD) (E : Set ℕ) (i : grid0.Coords)
    (arg2 : Memref sig .tc .vmem S1024x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1024x1024 .f32) (harg5 : arg5.IsWhole)
    (x0 : Vec F S1024x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__qkv_kernel i arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- On core `c`: the arrays as the launch finds them; after the body at point `t` each input buffer at its block and
    the output buffer at `outBlock` of the three blocks; the invariant is the part of the core the body never touches;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body obligation at a grid point -/

/-- What the pipeline hands the body at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it wants back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair run of @main ends; the product array ends at what the grid points wrote back, every other lasting
    buffer at what the ten later lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the run ends with the seven argument arrays as started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Run

end
-- ==== Proof.IdealBlock.lean ====
/-
  The body's output block, entry by entry, on the extended reals. The two changes of format to bf16 are the identity
  there, the three shape casts are between equal shapes, and a matrix product into a zero accumulator is the plain sum
  over the contracted axis; so entry (p, q) of the block the body stores is
      Σ_k x0[p, k] · x1[k, q]  +  x2[0, q] ,
  the row p of the first input block against the column q of the second, plus the bias stretch's entry q.
-/
import proofs.«115841_j58463094833510_1_alg».proof.Proof.IdealFrame
import Idealize.ShloMosaic.Lib.Pipeline.Value
import Idealize.ShloMosaic.Lib.ValueIdx
import Idealize.ShloMosaic.PureOps.Ideal.Laws

noncomputable section

namespace Cert.KernelIdeal.Run

open Cert.KernelIdeal Cert.KernelIdeal.Gen
open Idealize.ShloMosaic Idealize.ShloMosaic.ValueIdx
open scoped BigOperators

/-- The body's rectangles start at the origin. -/
theorem origin2 : (![0, 0] : Fin 2 → Nat) = fun _ => 0 := funext fun a => by fin_cases a <;> rfl

/-! The product's operand indices, axis by axis: the left operand is read at (row of the result, k), the right at
    (k, column of the result). -/

theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_contr (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_contr (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product of two 1024 × 1024 blocks into the zero block, at entry (p, q): the sum over k. -/
theorem product_apply (a b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  show FloatOps.matmul dot_S1024x1024_S1024x1024_S1024x1024_1_0_0_1_n_n none a b (constant (F := Ideal) S1024x1024 .f32 0x00000000#32) (ix2 p q) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_contr _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- A 1 × 1024 row broadcast down 1024 rows, at entry (p, q): the row's entry q. -/
theorem rowBroadcast_apply (x : FVec Ideal S1x1024 .f32) (p q : Fin 1024) :
    broadcastTo S1024x1024 x broadcasts_S1x1024_S1024x1024 (ix2 p q) = x (ix2 (0 : Fin 1) q) :=
  broadcastTo_apply x broadcasts_S1x1024_S1024x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- Entry (p, q) of what the body stores. -/
theorem outBlock_apply (x0 x1 : Vec Ideal S1024x1024 .f32) (x2 : Vec Ideal S1x1024 .f32) (p q : Fin 1024) :
    outBlock (F := Ideal) x0 x1 x2 (ix2 p q) = (∑ k : Fin 1024, x0 (ix2 p k) * x1 (ix2 k q)) + x2 (ix2 (0 : Fin 1) q) := by
  unfold outBlock
  rw [View.canon_unit_zero origin2]
  simp only [View.ld_unit_zero (S := S1024x1024) origin2, View.ld_unit_zero (S := S1x1024) origin2]
  unfold k0_pay1
  simp only [shapeCast_self]
  rw [addf_apply, product_apply, rowBroadcast_apply]
  rfl

end Cert.KernelIdeal.Run

end
-- ==== Proof.IdealArray.lean ====
/-
  The product array after the launch, as ONE function of the three arrays the launch finds: with A the 16384 × 1024
  flattened activations, W the 1024 × 3072 stacked weights and b the 1 × 3072 bias row,
      P[r, c] = Σ_k A[r, k] · W[k, c] + b[0, c] .
  Grid point t = (i, j) reads rows 1024·i … of A, columns 1024·j … of W and of b, and writes back the block of P at
  rows 1024·i …, columns 1024·j …; the 16 × 3 blocks tile the array, so it ends holding P.
-/
import proofs.«115841_j58463094833510_1_alg».proof.Proof.IdealBlock

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The product array from the flattened activations, the stacked weights and the bias row. -/
def prodArr (A : S16384x1024.Idx → EReal) (W : S1024x3072.Idx → EReal) (b : S1x3072.Idx → EReal) : S16384x3072.Idx → EReal :=
  fun j => (∑ k : Fin 1024, A (ix2 (⟨(j 0).val, (j 0).isLt⟩ : Fin 16384) k) * W (ix2 k (⟨(j 1).val, (j 1).isLt⟩ : Fin 3072)))
    + b (ix2 (0 : Fin 1) (⟨(j 1).val, (j 1).isLt⟩ : Fin 3072))

/-- One entry of one block: if the three input blocks are the stretches of A, W and b that block (bi, bj) names, entry
    (p, q) of what the body stores is P at row 1024·bi + p, column 1024·bj + q. -/
theorem block_entry (A : S16384x1024.Idx → EReal) (W : S1024x3072.Idx → EReal) (b : S1x3072.Idx → EReal)
    (x0 x1 : Vec Ideal S1024x1024 .f32) (x2 : Vec Ideal S1x1024 .f32) (bi bj : Nat) (hbi : bi ≤ 15) (hbj : bj ≤ 2)
    (h0 : ∀ (p k : Fin 1024), x0 (ix2 p k) = A (ix2 (⟨bi * 1024 + p.val, by omega⟩ : Fin 16384) k))
    (h1 : ∀ (k q : Fin 1024), x1 (ix2 k q) = W (ix2 k (⟨bj * 1024 + q.val, by omega⟩ : Fin 3072)))
    (h2 : ∀ q : Fin 1024, x2 (ix2 (0 : Fin 1) q) = b (ix2 (0 : Fin 1) (⟨bj * 1024 + q.val, by omega⟩ : Fin 3072)))
    (p q : Fin 1024) :
    outBlock (F := Ideal) x0 x1 x2 (ix2 p q)
      = prodArr A W b (ix2 (⟨bi * 1024 + p.val, by omega⟩ : Fin 16384) (⟨bj * 1024 + q.val, by omega⟩ : Fin 3072)) := by
  rw [outBlock_apply, h2]
  unfold prodArr
  congr 1
  exact Finset.sum_congr rfl fun k _ => by rw [h0, h1]

variable (m : (ℓ : Loc nD τ sig) → Buf (Elt Ideal) ℓ)

/-- The printed index maps over the 48 grid points: the activations' block follows the output's row block and sits at
    column block 0; the weights' and the bias's follow the output's column block and sit at row block 0; the output's
    block indices range over 16 × 3. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 2 :=
  (by decide +kernel : ∀ t : Fin grid0.N, _)

/-- Every block of the 16 × 3 tiling is some point's. -/
theorem idx_onto : ∀ (q0 : Fin 16) (q1 : Fin 3), ∃ t : Fin cfg0.N, win0_3.index t = ![q0.val, q1.val] :=
  (by decide +kernel : ∀ (q0 : Fin 16) (q1 : Fin 3), ∃ t : Fin grid0.N, win0_3.index t = ![q0.val, q1.val])

/-- What point `t` writes back is block `t` of P. -/
theorem flushed_eq (c : Dev nD) (t : Fin cfg0.N) :
    (dats m 0 c).flushed 3 t
      = ((cfg0.win 3).blk t).view.read (Elt Ideal) (prodArr (V m c main_v3) (V m c main_v0) (V m c main_v2)) := by
  show (cfg0.win 3).cut (grid0.coords t) ((dats m 0 c).after 3 t) = _
  rw [after_out]
  obtain ⟨e0, e1, e2, e3, e4, e5, e6, e7⟩ := idx_facts t
  funext y
  have hy0 : (y 0).val < 1024 := (y 0).isLt
  have hy1 : (y 1).val < 1024 := (y 1).isLt
  have hy : y = ix2 (⟨(y 0).val, hy0⟩ : Fin 1024) (⟨(y 1).val, hy1⟩ : Fin 1024) := by
    funext a; match a with | ⟨0, _⟩ => rfl | ⟨1, _⟩ => rfl
  have he : ((cfg0.win 3).blk t).view.emb y
      = ix2 (⟨win0_3.index t (0 : Fin 2) * 1024 + (y 0).val, by omega⟩ : Fin 16384) (⟨win0_3.index t (1 : Fin 2) * 1024 + (y 1).val, by omega⟩ : Fin 3072) := by
    funext a; apply Fin.ext
    match a with
    | ⟨0, _⟩ => show win0_3.index t (0 : Fin 2) * 1024 + 1 * (y 0).val = win0_3.index t (0 : Fin 2) * 1024 + (y 0).val; omega
    | ⟨1, _⟩ => show win0_3.index t (1 : Fin 2) * 1024 + 1 * (y 1).val = win0_3.index t (1 : Fin 2) * 1024 + (y 1).val; omega
  show outBlock (F := Ideal) (iblk m c 0 t) (iblk m c 1 t) (iblk m c 2 t) y
      = prodArr (V m c main_v3) (V m c main_v0) (V m c main_v2) (((cfg0.win 3).blk t).view.emb y)
  rw [he]
  refine (congrArg (outBlock (F := Ideal) (iblk m c 0 t) (iblk m c 1 t) (iblk m c 2 t)) hy).trans ?_
  refine block_entry (V m c main_v3) (V m c main_v0) (V m c main_v2) (iblk m c 0 t) (iblk m c 1 t) (iblk m c 2 t)
    (win0_3.index t (0 : Fin 2)) (win0_3.index t (1 : Fin 2)) e6 e7 ?_ ?_ ?_ ⟨(y 0).val, hy0⟩ ⟨(y 1).val, hy1⟩
  · intro p k
    show V m c main_v3 (((cfg0.win 0).blk t).view.emb (ix2 p k)) = _
    refine congrArg (V m c main_v3) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 1024 + 1 * k.val = k.val; omega
  · intro k q
    show V m c main_v0 (((cfg0.win 1).blk t).view.emb (ix2 k q)) = _
    refine congrArg (V m c main_v0) (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + q.val; omega
  · intro q
    show V m c main_v2 (((cfg0.win 2).blk t).view.emb (ix2 (0 : Fin 1) q)) = _
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega

/-- An index of the product array is in point `t`'s block iff each coordinate is in the block's range. -/
theorem mem_blk (t : Fin cfg0.N) (i : S16384x3072.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4).slice (win0_3.rect t)).set ↔ _
  rw [View.set_slice_whole, Rect.mem_set_unit]
  exact Iff.rfl

/-- Every index is in the block of the point at (row / 1024, column / 1024), which is written back. -/
theorem covered (i : S16384x3072.Idx) :
    ∃ t : Fin cfg0.N, (cfg0.win 3).flush t = true ∧ i ∈ ((cfg0.win 3).blk t).view.set := by
  have hi0 : (i 0).val < 16384 := (i 0).isLt
  have hi1 : (i 1).val < 3072 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The product array after the launch. -/
theorem final (c : Dev nD) :
    (dats m 0 c).arrAt 3 cfg0.N = prodArr (V m c main_v3) (V m c main_v0) (V m c main_v2) :=
  (dats m 0 c).arrAt_eq_of_cover 3 _ (fun t _ => flushed_eq m c t) covered

end Cert.KernelIdeal.Run

end
-- ==== Proof.IdealTail.lean ====
/-
  The results of the fused QKV program on the extended reals. After the launch the 16384 × 3072 product array P is
  re-read as [4, 4096, 3072]; each of q, k, v is 1024 of its columns (from 0, 1024, 2048), cut into 16 heads of 64 and
  with heads moved in front of positions. The arrays the launch found are themselves host results of the arguments:
  the activations flattened, the three weight matrices side by side, the three biases end to end as one row.
-/
import proofs.«115841_j58463094833510_1_alg».proof.Proof.IdealArray
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

/-- One of q, k, v per head from the [4, 4096, 3072] projection: the 1024 columns starting at `off`, as 16 heads of 64,
    heads in front of positions. -/
def heads (off : Nat) (h : S4x4096x3072.Slices ![0, 0, off] S4x4096x1024)
    (X : (⟨S4x4096x3072, .f32⟩ : BufTy).Contents (Elt Ideal)) : (⟨S4x16x4096x64, .f32⟩ : BufTy).Contents (Elt Ideal) :=
  transpose S4x16x4096x64 [0, 2, 1, 3]
    (shapeCast S4x4096x16x64 (extractStridedSlice S4x4096x1024 ![0, 0, off] X h) shapeCasts_S4x4096x1024_S4x4096x16x64)
    transposes_S4x4096x16x64_S4x16x4096x64_0_2_1_3

/-- The projection as [4, 4096, 3072], from the flattened activations, the stacked weights and the bias row. -/
def proj (A : (⟨S16384x1024, .f32⟩ : BufTy).Contents (Elt Ideal)) (W : (⟨S1024x3072, .f32⟩ : BufTy).Contents (Elt Ideal))
    (b : (⟨S1x3072, .f32⟩ : BufTy).Contents (Elt Ideal)) : (⟨S4x4096x3072, .f32⟩ : BufTy).Contents (Elt Ideal) :=
  shapeCast S4x4096x3072 (prodArr A W b) shapeCasts_S16384x3072_S4x4096x3072

variable (m : (ℓ : Loc nD τ sig) → Buf (Elt Ideal) ℓ) (ρ : Dev nD → PrngReg)

/-! ## What the launch finds -/

/-- The activations' array is the argument flattened to 16384 rows. -/
theorem V_act (c : Dev nD) :
    V m c main_v3 = shapeCast S16384x1024 (m ((c.tc : Thread nD τ).loc main_arg0)) shapeCasts_S4x4096x1024_S16384x1024 := by
  show StableHlo.after hostOps0 (fun b => m (c, b)) (Proc.devRef .tc main_v3) = _
  after_results <;> rfl

/-- The weights' array is the three weight matrices side by side. -/
theorem V_wts (c : Dev nD) :
    V m c main_v0 = concatenate S1024x3072 1 [⟨S1024x1024, m ((c.tc : Thread nD τ).loc main_arg1)⟩, ⟨S1024x1024, m ((c.tc : Thread nD τ).loc main_arg3)⟩, ⟨S1024x1024, m ((c.tc : Thread nD τ).loc main_arg5)⟩]
      concatenates_S1024x1024_S1024x1024_S1024x1024_S1024x3072_d1 := by
  show StableHlo.after hostOps0 (fun b => m (c, b)) (Proc.devRef .tc main_v0) = _
  after_results <;> rfl

/-- The bias row is the three biases end to end, as a 1 × 3072 row. -/
theorem V_bias (c : Dev nD) :
    V m c main_v2 = shapeCast S1x3072 (concatenate S3072 0 [⟨S1024, m ((c.tc : Thread nD τ).loc main_arg2)⟩, ⟨S1024, m ((c.tc : Thread nD τ).loc main_arg4)⟩, ⟨S1024, m ((c.tc : Thread nD τ).loc main_arg6)⟩]
      concatenates_S1024_S1024_S1024_S3072_d0) shapeCasts_S3072_S1x3072 := by
  show StableHlo.after hostOps0 (fun b => m (c, b)) (Proc.devRef .tc main_v2) = _
  after_results <;> rfl

/-! ## The ten lines after the launch -/

/-- They read the product array where the launch left it. -/
theorem left_arr (c : Dev nD) :
    Pipeline.withArrays (cfgs 0).spec c (V0 m c) (fun w => (dats m 0 c).arrAt w (cfgs 0).N) (Proc.devRef .tc main_v4)
      = prodArr (V m c main_v3) (V m c main_v0) (V m c main_v2) :=
  (Pipeline.withArrays_arr spec0 launch0.win.arr_inj c (V0 m c) _ 3).trans (final m c)

theorem tail_q (c : Dev nD) :
    Pipeline.afterTail₀ cfgs (dats m) 0 (V0 m) [hostOps1] c main_v10
      = heads 0 slices_S4x4096x3072_S4x4096x1024_0_0_0 (proj (V m c main_v3) (V m c main_v0) (V m c main_v2)) := by
  unfold Pipeline.afterTail₀
  show StableHlo.after hostOps1 _ (Proc.devRef .tc main_v10) = _
  after_results
  rw [left_arr]
  rfl

theorem tail_k (c : Dev nD) :
    Pipeline.afterTail₀ cfgs (dats m) 0 (V0 m) [hostOps1] c main_v12
      = heads 1024 slices_S4x4096x3072_S4x4096x1024_0_0_1024 (proj (V m c main_v3) (V m c main_v0) (V m c main_v2)) := by
  unfold Pipeline.afterTail₀
  show StableHlo.after hostOps1 _ (Proc.devRef .tc main_v12) = _
  after_results
  rw [left_arr]
  rfl

theorem tail_v (c : Dev nD) :
    Pipeline.afterTail₀ cfgs (dats m) 0 (V0 m) [hostOps1] c main_v14
      = heads 2048 slices_S4x4096x3072_S4x4096x1024_0_0_2048 (proj (V m c main_v3) (V m c main_v0) (V m c main_v2)) := by
  unfold Pipeline.afterTail₀
  show StableHlo.after hostOps1 _ (Proc.devRef .tc main_v14) = _
  after_results
  rw [left_arr]
  rfl

/-! ## The run, with its results named -/

/-- The projection of the ARGUMENTS: what q, k, v are cut from. -/
def projOf (x0 : (⟨S4x4096x1024, .f32⟩ : BufTy).Contents (Elt Ideal)) (x1 x3 x5 : (⟨S1024x1024, .f32⟩ : BufTy).Contents (Elt Ideal))
    (x2 x4 x6 : (⟨S1024, .f32⟩ : BufTy).Contents (Elt Ideal)) : (⟨S4x4096x3072, .f32⟩ : BufTy).Contents (Elt Ideal) :=
  proj (shapeCast S16384x1024 x0 shapeCasts_S4x4096x1024_S16384x1024)
    (concatenate S1024x3072 1 [⟨S1024x1024, x1⟩, ⟨S1024x1024, x3⟩, ⟨S1024x1024, x5⟩] concatenates_S1024x1024_S1024x1024_S1024x1024_S1024x3072_d1)
    (shapeCast S1x3072 (concatenate S3072 0 [⟨S1024, x2⟩, ⟨S1024, x4⟩, ⟨S1024, x6⟩] concatenates_S1024_S1024_S1024_S3072_d0) shapeCasts_S3072_S1x3072)

theorem proj_V (c : Dev nD) :
    proj (V m c main_v3) (V m c main_v0) (V m c main_v2)
      = projOf (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg2)) (m ((c.tc : Thread nD τ).loc main_arg4)) (m ((c.tc : Thread nD τ).loc main_arg6)) := by
  rw [V_act, V_wts, V_bias]; rfl

/-- Every weakly fair run of @main ends with q, k, v at the three cuts of the projection of the arguments, and the
    arguments as they were. -/
theorem run_values : θ_run defs (onTc (τ := τ) (main (F := Ideal))) ⟨m, fun _ => 0, ρ⟩ (fun r => ∀ c : Dev nD,
      r.2.mem ((c.tc : Thread nD τ).loc main_v10) = heads 0 slices_S4x4096x3072_S4x4096x1024_0_0_0 (projOf (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg2)) (m ((c.tc : Thread nD τ).loc main_arg4)) (m ((c.tc : Thread nD τ).loc main_arg6)))
      ∧ r.2.mem ((c.tc : Thread nD τ).loc main_v12) = heads 1024 slices_S4x4096x3072_S4x4096x1024_0_0_1024 (projOf (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg2)) (m ((c.tc : Thread nD τ).loc main_arg4)) (m ((c.tc : Thread nD τ).loc main_arg6)))
      ∧ r.2.mem ((c.tc : Thread nD τ).loc main_v14) = heads 2048 slices_S4x4096x3072_S4x4096x1024_0_0_2048 (projOf (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg2)) (m ((c.tc : Thread nD τ).loc main_arg4)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v10 (Pipeline.mem_restRefs_of main_v10 (by decide) (by decide))).trans ((tail_q m c).trans (congrArg _ (proj_V m c))),
      ((h c).2 main_v12 (Pipeline.mem_restRefs_of main_v12 (by decide) (by decide))).trans ((tail_k m c).trans (congrArg _ (proj_V m c))),
      ((h c).2 main_v14 (Pipeline.mem_restRefs_of main_v14 (by decide) (by decide))).trans ((tail_v m c).trans (congrArg _ (proj_V m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.Bridge.lean ====
/-
  The reference computes the same projection. It contracts the activations [4, 4096, 1024] with the stacked weights
  over the hidden axis and adds the stacked bias broadcast over batch and position:
      R[b, s, f] = Σ_k x[b, s, k] · W[k, f] + bias[f] .
  The kernel's program flattens (b, s) to the row 4096·b + s, forms the 16384 × 3072 product with the bias as a row,
  and re-reads it as [4, 4096, 3072]: entry (b, s, f) is row 4096·b + s, column f, of the product, and row 4096·b + s of
  the flattened activations is x[b, s, ·]. So the two agree index by index; the stacked weights and the stacked bias
  are the same two concatenations on both sides and are never opened. The cuts into q, k, v per head are the same
  three host operations applied to the two (equal) projections.
-/
import proofs.«115841_j58463094833510_1_alg».proof.Proof.IdealTail
import proofs.«115841_j58463094833510_1_alg».proof.Proof.Gen.ReferenceIdeal.Read

set_option maxRecDepth 16384

noncomputable section

namespace Cert.QkvBridge

open Idealize.ShloMosaic Idealize.ShloMosaic.ValueIdx
open Cert.ReferenceIdeal.Read
open scoped BigOperators

/-- Entry (b, s, f) of the kernel program's projection, over the stacked weights `W` and stacked bias `B` whatever they are. -/
theorem proj_apply (x0 : (⟨Cert.ReferenceIdeal.S4x4096x1024, .f32⟩ : BufTy).Contents (Elt Ideal))
    (W : (⟨Cert.ReferenceIdeal.S1024x3072, .f32⟩ : BufTy).Contents (Elt Ideal)) (B : (⟨Cert.ReferenceIdeal.S3072, .f32⟩ : BufTy).Contents (Elt Ideal))
    (i : Cert.ReferenceIdeal.S4x4096x3072.Idx) :
    Cert.KernelIdeal.Run.proj (shapeCast Cert.KernelIdeal.S16384x1024 x0 Cert.KernelIdeal.Facts₀.shapeCasts_S4x4096x1024_S16384x1024) W
        (shapeCast Cert.KernelIdeal.S1x3072 B Cert.KernelIdeal.Facts₀.shapeCasts_S3072_S1x3072) i
      = (∑ k : Fin 1024, x0 (lidx_main_v2 i k) * W (ridx_main_v2 i k)) + B (idx_main_v3 (idx_main_v4 i)) := by
  have hi0 : (i 0).val < 4 := (i 0).isLt
  have hi1 : (i 1).val < 4096 := (i 1).isLt
  have hi2 : (i 2).val < 3072 := (i 2).isLt
  unfold Cert.KernelIdeal.Run.proj
  rw [shapeCast_apply _ Cert.KernelIdeal.Facts₀.shapeCasts_S16384x3072_S4x4096x3072 i
    (ix2 (⟨(i 0).val * 4096 + (i 1).val, by omega⟩ : Fin 16384) (⟨(i 2).val, hi2⟩ : Fin 3072)) (by
      rewrite [Shape.rowMajor_val_two, Shape.rowMajor_val_three]
      show ((i 0).val * 4096 + (i 1).val) * 3072 + (i 2).val = ((i 0).val * 4096 + (i 1).val) * 3072 + (i 2).val
      rfl)]
  unfold Cert.KernelIdeal.Run.prodArr
  congr 1
  · refine Finset.sum_congr rfl fun k _ => ?_
    congr 1
    · exact shapeCast_apply x0 Cert.KernelIdeal.Facts₀.shapeCasts_S4x4096x1024_S16384x1024 _ (lidx_main_v2 i k) (by
        rewrite [Shape.rowMajor_val_three, Shape.rowMajor_val_two]
        show ((i 0).val * 4096 + (i 1).val) * 1024 + k.val = ((i 0).val * 4096 + (i 1).val) * 1024 + k.val
        rfl)
    · exact congrArg W (funext fun a => match a with | ⟨0, _⟩ => rfl | ⟨1, _⟩ => rfl)
  · exact shapeCast_apply B Cert.KernelIdeal.Facts₀.shapeCasts_S3072_S1x3072 _ (idx_main_v3 (idx_main_v4 i)) (by
      rewrite [Shape.rowMajor_val_one, Shape.rowMajor_val_two]
      show (i 2).val = 0 * 3072 + (i 2).val
      omega)

/-- The reference's sum before the cuts is the kernel program's projection of the same arguments. -/
theorem ref_proj (x0 : (⟨Cert.ReferenceIdeal.S4x4096x1024, .f32⟩ : BufTy).Contents (Elt Ideal)) (x1 x3 x5 : (⟨Cert.ReferenceIdeal.S1024x1024, .f32⟩ : BufTy).Contents (Elt Ideal)) (x2 x4 x6 : (⟨Cert.ReferenceIdeal.S1024, .f32⟩ : BufTy).Contents (Elt Ideal)) :
    val_main_v5 (F := Ideal) x0 x1 x2 x3 x4 x5 x6 = Cert.KernelIdeal.Run.projOf x0 x1 x3 x5 x2 x4 x6 := by
  funext i
  unfold Cert.KernelIdeal.Run.projOf
  rw [val_main_v5_apply, val_main_v2_apply, val_main_v4_apply, val_main_v3_apply]
  exact (proj_apply x0 (val_main_v0 (F := Ideal) x1 x3 x5) (val_main_v1 (F := Ideal) x2 x4 x6) i).symm

/-- The reference's three results are the three cuts of that projection. -/
theorem ref_q (x0 : (⟨Cert.ReferenceIdeal.S4x4096x1024, .f32⟩ : BufTy).Contents (Elt Ideal)) (x1 x3 x5 : (⟨Cert.ReferenceIdeal.S1024x1024, .f32⟩ : BufTy).Contents (Elt Ideal)) (x2 x4 x6 : (⟨Cert.ReferenceIdeal.S1024, .f32⟩ : BufTy).Contents (Elt Ideal)) :
    val_main_v10 (F := Ideal) x0 x1 x2 x3 x4 x5 x6 = Cert.KernelIdeal.Run.heads 0 Cert.KernelIdeal.Facts₀.slices_S4x4096x3072_S4x4096x1024_0_0_0 (Cert.KernelIdeal.Run.projOf x0 x1 x3 x5 x2 x4 x6) := by
  rw [← ref_proj]; rfl
theorem ref_k (x0 : (⟨Cert.ReferenceIdeal.S4x4096x1024, .f32⟩ : BufTy).Contents (Elt Ideal)) (x1 x3 x5 : (⟨Cert.ReferenceIdeal.S1024x1024, .f32⟩ : BufTy).Contents (Elt Ideal)) (x2 x4 x6 : (⟨Cert.ReferenceIdeal.S1024, .f32⟩ : BufTy).Contents (Elt Ideal)) :
    val_main_v12 (F := Ideal) x0 x1 x2 x3 x4 x5 x6 = Cert.KernelIdeal.Run.heads 1024 Cert.KernelIdeal.Facts₀.slices_S4x4096x3072_S4x4096x1024_0_0_1024 (Cert.KernelIdeal.Run.projOf x0 x1 x3 x5 x2 x4 x6) := by
  rw [← ref_proj]; rfl
theorem ref_v (x0 : (⟨Cert.ReferenceIdeal.S4x4096x1024, .f32⟩ : BufTy).Contents (Elt Ideal)) (x1 x3 x5 : (⟨Cert.ReferenceIdeal.S1024x1024, .f32⟩ : BufTy).Contents (Elt Ideal)) (x2 x4 x6 : (⟨Cert.ReferenceIdeal.S1024, .f32⟩ : BufTy).Contents (Elt Ideal)) :
    val_main_v14 (F := Ideal) x0 x1 x2 x3 x4 x5 x6 = Cert.KernelIdeal.Run.heads 2048 Cert.KernelIdeal.Facts₀.slices_S4x4096x3072_S4x4096x1024_0_0_2048 (Cert.KernelIdeal.Run.projOf x0 x1 x3 x5 x2 x4 x6) := by
  rw [← ref_proj]; rfl

end Cert.QkvBridge

end
-- ==== Proof.lean ====
/-
  A fused QKV projection: hidden states x : [4, 4096, 1024], three 1024 × 1024 weight matrices and three biases of 1024.
  Both programs lay the weights side by side (W : 1024 × 3072) and the biases end to end (bias : 3072), form
      qkv[b, s, f] = Σ_k x[b, s, k] · W[k, f] + bias[f] ,
  and cut q, k, v out of its last axis, each as 16 heads of 64 with heads moved in front of positions.
  The kernel's program forms qkv as a 16384 × 3072 product on a 16 × 3 grid of 1024 × 1024 blocks, rounding both
  operands of each block product to bf16 first; on the extended reals that rounding is the identity and a block
  product into a zero accumulator is the plain sum over k, so block (i, j) of the product is the block of qkv at rows
  1024·i …, columns 1024·j …, and the blocks tile the array. The reference contracts x with W over the hidden axis in
  one step and adds the broadcast bias. Flattening (b, s) to the row 4096·b + s identifies the two, entry by entry;
  the sums are over the same index set in the same order, so nothing beyond reading both sides at an index is needed,
  and the precondition (finite inputs) is not used.
  The three frames: each kernel-side program runs to the end because every grid point's body does (it loads three whole
  staging buffers and stores one) and no host line or window writes an argument; the reference is host lines only.
  The idealized kernel is the printed kernel read on the extended reals with no rewrite, so `preserves` is trivial.
-/
import proofs.«115841_j58463094833510_1_alg».proof.Defs
import proofs.«115841_j58463094833510_1_alg».proof.Proof.Gen.Kernel
import proofs.«115841_j58463094833510_1_alg».proof.Proof.Gen.Kernel.Skeleton
import proofs.«115841_j58463094833510_1_alg».proof.Proof.Gen.Kernel.Launch
import proofs.«115841_j58463094833510_1_alg».proof.Proof.Gen.Kernel.Points
import proofs.«115841_j58463094833510_1_alg».proof.Proof.Gen.KernelIdeal
import proofs.«115841_j58463094833510_1_alg».proof.Proof.Gen.KernelIdeal.Skeleton
import proofs.«115841_j58463094833510_1_alg».proof.Proof.Gen.KernelIdeal.Launch
import proofs.«115841_j58463094833510_1_alg».proof.Proof.Gen.KernelIdeal.Points
import proofs.«115841_j58463094833510_1_alg».proof.Proof.Gen.ReferenceIdeal
import proofs.«115841_j58463094833510_1_alg».proof.Proof.Gen.ReferenceIdeal.Run
import proofs.«115841_j58463094833510_1_alg».proof.Proof.Gen.ReferenceIdeal.Read
import proofs.«115841_j58463094833510_1_alg».proof.Proof.Gen.Pre_finite_inputs
import proofs.«115841_j58463094833510_1_alg».proof.Proof.BitsFrame
import proofs.«115841_j58463094833510_1_alg».proof.Proof.Bridge
import Idealize.ShloMosaic.Adequacy
import Idealize.ShloMosaic.Init

noncomputable section

namespace Cert.Proof

open Idealize.ShloMosaic Idealize.SL.Sem

/-- The word-level kernel program runs and leaves its arguments alone. -/
theorem frame_bits : Cert.frame_Kernel := fun m ρ _ => Cert.Kernel.Run.frame m ρ

/-- So does the same text read on the extended reals. -/
theorem frame_ideal : Cert.frame_KernelIdeal := fun m ρ _ => Cert.KernelIdeal.Run.frame m ρ

/-- The reference is fifteen host lines: its run, with the three results dropped. -/
theorem frame_ref : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both programs end with q, k, v at the three cuts of the one projection of the arguments. -/
theorem algebraic : Cert.algebraic_KernelIdeal_ReferenceIdeal := by
  intro m ρ m' ρ' _ hagree
  refine ⟨_, _, _, Cert.KernelIdeal.Run.run_values m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · rw [Cert.ReferenceIdeal.Read.val_main_v10_eq, Cert.QkvBridge.ref_q, a0, a1, a2, a3, a4, a5, a6]
  · rw [Cert.ReferenceIdeal.Read.val_main_v12_eq, Cert.QkvBridge.ref_k, a0, a1, a2, a3, a4, a5, a6]
  · rw [Cert.ReferenceIdeal.Read.val_main_v14_eq, Cert.QkvBridge.ref_v, a0, a1, a2, a3, a4, a5, a6]

theorem claim : Cert.Claim := ⟨Cert.Kernel.Gen.facts, Cert.KernelIdeal.Gen.facts, Cert.ReferenceIdeal.Gen.facts, Cert.Pre_finite_inputs.Gen.facts,
  frame_bits, frame_ideal, frame_ref, preserves, algebraic⟩

end Cert.Proof

end
